-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x1 .f32) (main_arg1 : IVec S2x800000 32) (main_arg2 : FVec F S1x256 .f32) (main_arg3 : FVec F S256 .f32) (main_arg4 : FVec F S256x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x1 : Shape := ⟨2, ![50000, 1]⟩
abbrev S2x800000 : Shape := ⟨2, ![2, 800000]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x1 : Shape := ⟨2, ![1, 1]⟩
abbrev S50000x256 : Shape := ⟨2, ![50000, 256]⟩
abbrev S5000x1 : Shape := ⟨2, ![5000, 1]⟩
abbrev S5000x256 : Shape := ⟨2, ![5000, 256]⟩
abbrev S850000x256 : Shape := ⟨2, ![850000, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 128
  | .vmem => 24
  | .smem => 0
  | _ => 0

abbrev bufTy : (tb : Table) → Fin (tcTables nBuf tb) → BufTy
  | .hbm, ⟨0, _⟩ => ⟨S50000x1, .f32⟩
  | .hbm, ⟨1, _⟩ => ⟨S2x800000, .i32⟩
  | .hbm, ⟨2, _⟩ => ⟨S1x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .f32⟩
  | .hbm, ⟨53, _⟩ => ⟨S1, .f32⟩
  | .hbm, ⟨54, _⟩ => ⟨S1x1, .f32⟩
  | .hbm, ⟨55, _⟩ => ⟨S50000x256, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x256, .f32⟩
  | .hbm, ⟨65, _⟩ => ⟨S850000x1, .f32⟩
  | .hbm, ⟨66, _⟩ => ⟨S850000x256, .f32⟩
  | .hbm, ⟨67, _⟩ => ⟨S850000x256, .f32⟩
  | .hbm, ⟨68, _⟩ => ⟨S_, .f32⟩
  | .hbm, ⟨69, _⟩ => ⟨S50000x256, .f32⟩
  | .hbm, ⟨70, _⟩ => ⟨S850000x1, .i32⟩
  | .hbm, ⟨71, _⟩ => ⟨S50000x256, .f32⟩
  | .hbm, ⟨72, _⟩ => ⟨S1x256, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x64, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x1, .f32⟩
  | .hbm, ⟨110, _⟩ => ⟨S_, .i32⟩
  | .hbm, ⟨111, _⟩ => ⟨S850000, .i32⟩
  | .hbm, ⟨112, _⟩ => ⟨S850000, .i1⟩
  | .hbm, ⟨113, _⟩ => ⟨S_, .i32⟩
  | .hbm, ⟨114, _⟩ => ⟨S850000, .i32⟩
  | .hbm, ⟨115, _⟩ => ⟨S850000, .i32⟩
  | .hbm, ⟨116, _⟩ => ⟨S850000, .i32⟩
  | .hbm, ⟨117, _⟩ => ⟨S850000x1, .i32⟩
  | .hbm, ⟨118, _⟩ => ⟨S850000x1, .f32⟩
  | .hbm, ⟨119, _⟩ => ⟨S850000x1, .f32⟩
  | .hbm, ⟨120, _⟩ => ⟨S850000x1, .f32⟩
  | .hbm, ⟨121, _⟩ => ⟨S_, .f32⟩
  | .hbm, ⟨122, _⟩ => ⟨S50000x1, .f32⟩
  | .hbm, ⟨123, _⟩ => ⟨S850000x1, .i32⟩
  | .hbm, ⟨124, _⟩ => ⟨S50000x1, .f32⟩
  | .hbm, ⟨125, _⟩ => ⟨S1x1, .f32⟩
  | .hbm, ⟨126, _⟩ => ⟨S50000x1, .f32⟩
  | .hbm, ⟨127, _⟩ => ⟨S50000x1, .f32⟩
  | .local _ .vmem, ⟨0, _⟩ => ⟨S5000x1, .f32⟩
  | .local _ .vmem, ⟨1, _⟩ => ⟨S5000x1, .f32⟩
  | .local _ .vmem, ⟨2, _⟩ => ⟨S1x1, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S1x256, .f32⟩
  | .local _ .vmem, ⟨9, _⟩ => ⟨S256x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S64x1, .f32⟩
  | .local _ .vmem, ⟨22, _⟩ => ⟨S5000x1, .f32⟩
  | .local _ .vmem, ⟨23, _⟩ => ⟨S5000x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1 : S_.BroadcastsInDim S1 (![] : Fin 0 → Fin S1.rank)
  shapeCasts_S1_S1x1 : S1.ShapeCasts S1x1
  inb_S5000x1_S5000x1_0_0 : ∀ a, (![0, 0] : Fin 2 → Nat) a + S5000x1.size a ≤ S5000x1.size a
  h_S5000x1 : 0 < S5000x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x1_S1x256_S5000x256_1_0_0_1_n_n_wf : DotDims.WF S5000x1 S1x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x1_S1x256_S5000x256_1_0_0_1_n_n : DotDims S5000x1 S1x256 S5000x256 where
  lhsContracting := [1]
  rhsContracting := [0]
  lhsNonContracting := [0]
  rhsNonContracting := [1]
  lhsBatch := []
  rhsBatch := []
  wf := dot_S5000x1_S1x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S50000x1, .f32⟩
  | 1 => ⟨S2x800000, .i32⟩
  | 2 => ⟨S1x256, .f32⟩
  | 3 => ⟨S256, .f32⟩
  | 4 => ⟨S256x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x256, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x256, .f32⟩
  | 62 => ⟨S850000x1, .f32⟩
  | 63 => ⟨S850000x256, .f32⟩
  | 64 => ⟨S850000x256, .f32⟩
  | 65 => ⟨S_, .f32⟩
  | 66 => ⟨S50000x256, .f32⟩
  | 67 => ⟨S850000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x64, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x64, .f32⟩
  | 108 => ⟨S850000x1, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x1, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x1, .f32⟩

abbrev hbmTy0_1 (i : Nat) : BufTy := match i % 128 with
  | 0 => ⟨S850000, .i32⟩
  | 1 => ⟨S850000x1, .i32⟩
  | 2 => ⟨S850000x1, .f32⟩
  | 3 => ⟨S850000x1, .f32⟩
  | 4 => ⟨S850000x1, .f32⟩
  | 5 => ⟨S_, .f32⟩
  | 6 => ⟨S50000x1, .f32⟩
  | 7 => ⟨S850000x1, .i32⟩
  | 8 => ⟨S50000x1, .f32⟩
  | 9 => ⟨S1x1, .f32⟩
  | 10 => ⟨S50000x1, .f32⟩
  | 11 => ⟨S50000x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call3_cst : Ref sig .tc := ⟨.hbm, 118, rfl⟩
abbrev main_call3_v0 : Ref sig .tc := ⟨.hbm, 119, rfl⟩
abbrev main_v84 : Ref sig .tc := ⟨.hbm, 120, rfl⟩
abbrev main_v85 : Ref sig .tc := ⟨.hbm, 121, rfl⟩
abbrev main_c_16 : Ref sig .tc := ⟨.hbm, 122, rfl⟩
abbrev main_v86 : Ref sig .tc := ⟨.hbm, 123, rfl⟩
abbrev main_v87 : Ref sig .tc := ⟨.hbm, 124, rfl⟩
abbrev main_c_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1_S1x256_S50000x256_1_0_0_1_n_n_wf : DotDims.WF S50000x1 S1x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1_S1x256_S50000x256_1_0_0_1_n_n : DotDims S50000x1 S1x256 S50000x256 where
  lhsContracting := [1]
  rhsContracting := [0]
  lhsNonContracting := [0]
  rhsNonContracting := [1]
  lhsBatch := []
  rhsBatch := []
  wf := dot_S50000x1_S1x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.KFold0.lean ====
/- The kernel program's host operations before its first region, read.
   They compute, from the edge list alone, the source and destination node of every edge (the given edges followed by
   one self-loop per node), each node's degree, the inverse square root of the positive degrees, and the per-edge
   weight; they also lay out a 1×1 array of zeros that the first region adds to its input. Each of these buffers, when the
   first region is entered, holds the SAME function of the edge list that the reference program's operation of the same
   number computes; and every argument array still holds its launch contents. -/
import proofs.«110405_j18640158064951_1_alg».proof.Proof.Gen.KernelIdeal.Frame
import proofs.«110405_j18640158064951_1_alg».proof.Proof.RefRead
import Idealize.ShloMosaic.Lib.StableHlo.Run

set_option maxRecDepth 16384

noncomputable section

namespace Cert.KernelIdeal.Fold

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before. -/
macro "kept_by_host" : tactic =>
  `(tactic| (dsimp only [W1, W2, W3, W5, W7, W9, W11, hostOps0, hostOps0_1, hostOps0_2, hostOps1, hostOps2, hostOps3, hostOps4]
             after_results_simp))

/-! ## After the first stretch: the edges' endpoints, and the degree test -/

/-- The source node of every edge: the first row of the edge list, then the nodes themselves. -/
theorem w1_v3 : W1 m ρ c (Proc.devRef .tc main_v3) = val_main_v3 (F := Ideal) (m ((c : Thread nD τ).loc main_arg1)) := by
  dsimp only [W1, hostOps0]
  after_results
  rfl

/-- The destination node of every edge: the second row of the edge list, then the nodes themselves. -/
theorem w1_v6 : W1 m ρ c (Proc.devRef .tc main_v6) = val_main_v6 (F := Ideal) (m ((c : Thread nD τ).loc main_arg1)) := by
  dsimp only [W1, hostOps0]
  after_results
  rfl

/-- Which nodes have positive degree (the degree is the number of edges arriving at the node). -/
theorem w1_v12 : W1 m ρ c (Proc.devRef .tc main_v12) = val_main_v12 (F := Ideal) (m ((c : Thread nD τ).loc main_arg1)) := by
  dsimp only [W1, hostOps0]
  after_results
  rfl

/-- The degree to the power -1/2. -/
theorem w1_v14 : W1 m ρ c (Proc.devRef .tc main_v14) = val_main_v14 (F := Ideal) (m ((c : Thread nD τ).loc main_arg1)) := by
  dsimp only [W1, hostOps0]
  after_results
  rfl

/-- The value given to nodes of degree zero. -/
theorem w1_cst3 : W1 m ρ c (Proc.devRef .tc main_cst_3) = val_main_cst_3 (F := Ideal) := by
  dsimp only [W1, hostOps0]
  after_results
  rfl

/-! ## After the selection: the inverse square root of the degree, zero where the degree is zero -/

theorem w2_v15 : W2 m ρ c (Proc.devRef .tc main_v15) = val_main_v15 (F := Ideal) (m ((c : Thread nD τ).loc main_arg1)) := by
  have h12 := w1_v12 m ρ c
  have h14 := w1_v14 m ρ c
  have hc := w1_cst3 m ρ c
  dsimp only [W2, hostOps0_1]
  generalize W1 m ρ c = V at h12 h14 hc ⊢
  after_results_simp
  try simp only [TRef.ofBuf, TRef.toBuf, cast_eq]
  rw [h12, h14, hc]
  rfl

theorem w2_v3 : W2 m ρ c (Proc.devRef .tc main_v3) = val_main_v3 (F := Ideal) (m ((c : Thread nD τ).loc main_arg1)) :=
  (show W2 m ρ c (Proc.devRef .tc main_v3) = W1 m ρ c (Proc.devRef .tc main_v3) by kept_by_host).trans (w1_v3 m ρ c)

theorem w2_v6 : W2 m ρ c (Proc.devRef .tc main_v6) = val_main_v6 (F := Ideal) (m ((c : Thread nD τ).loc main_arg1)) :=
  (show W2 m ρ c (Proc.devRef .tc main_v6) = W1 m ρ c (Proc.devRef .tc main_v6) by kept_by_host).trans (w1_v6 m ρ c)

/-! ## When the first region is entered -/

/-- The per-edge weight: the product of the two endpoints' inverse square-root degrees. -/
theorem w3_v30 : W3 m ρ c (Proc.devRef .tc main_v30) = val_main_v30 (F := Ideal) (m ((c : Thread nD τ).loc main_arg1)) := by
  have h3 := w2_v3 m ρ c
  have h6 := w2_v6 m ρ c
  have h15 := w2_v15 m ρ c
  dsimp only [W3, hostOps0_2]
  generalize W2 m ρ c = V at h3 h6 h15 ⊢
  after_results_simp
  rw [h3, h6, h15]
  rfl

theorem w3_v3 : W3 m ρ c (Proc.devRef .tc main_v3) = val_main_v3 (F := Ideal) (m ((c : Thread nD τ).loc main_arg1)) :=
  (show W3 m ρ c (Proc.devRef .tc main_v3) = W2 m ρ c (Proc.devRef .tc main_v3) by kept_by_host).trans (w2_v3 m ρ c)

theorem w3_v6 : W3 m ρ c (Proc.devRef .tc main_v6) = val_main_v6 (F := Ideal) (m ((c : Thread nD τ).loc main_arg1)) :=
  (show W3 m ρ c (Proc.devRef .tc main_v6) = W2 m ρ c (Proc.devRef .tc main_v6) by kept_by_host).trans (w2_v6 m ρ c)

/-- The 1×1 array the first region adds to its input holds the value of the zero word. -/
theorem w3_v32 (j : S1x1.Idx) :
    W3 m ρ c (Proc.devRef .tc main_v32) j = FloatOps.ofBits (F := Ideal) .f32 0x00000000#32 := by
  have e : W3 m ρ c (Proc.devRef .tc main_v32)
      = fun i => shapeCast S1x1 (broadcastInDim S1 ![] bcast_S_S1 (constant (F := Ideal) S_ .f32 0x00000000#32)) shapeCasts_S1_S1x1 i := by
    dsimp only [W3, hostOps0_2]
    generalize W2 m ρ c = V
    after_results_simp
    rfl
  rw [e]
  rfl

/-! ## The argument arrays are as launched when the first region is entered -/

theorem w3_arg0 : W3 m ρ c (Proc.devRef .tc main_arg0) = m ((c : Thread nD τ).loc main_arg0) := by kept_by_host
theorem w3_arg2 : W3 m ρ c (Proc.devRef .tc main_arg2) = m ((c : Thread nD τ).loc main_arg2) := by kept_by_host
theorem w3_arg3 : W3 m ρ c (Proc.devRef .tc main_arg3) = m ((c : Thread nD τ).loc main_arg3) := by kept_by_host
theorem w3_arg4 : W3 m ρ c (Proc.devRef .tc main_arg4) = m ((c : Thread nD τ).loc main_arg4) := by kept_by_host
theorem w3_arg5 : W3 m ρ c (Proc.devRef .tc main_arg5) = m ((c : Thread nD τ).loc main_arg5) := by kept_by_host
theorem w3_arg6 : W3 m ρ c (Proc.devRef .tc main_arg6) = m ((c : Thread nD τ).loc main_arg6) := by kept_by_host
theorem w3_arg7 : W3 m ρ c (Proc.devRef .tc main_arg7) = m ((c : Thread nD τ).loc main_arg7) := by kept_by_host
theorem w3_arg8 : W3 m ρ c (Proc.devRef .tc main_arg8) = m ((c : Thread nD τ).loc main_arg8) := by kept_by_host
theorem w3_arg9 : W3 m ρ c (Proc.devRef .tc main_arg9) = m ((c : Thread nD τ).loc main_arg9) := by kept_by_host

end Cert.KernelIdeal.Fold

end
-- ==== Proof.Dense.lean ====
/- One dense layer over the extended reals, index by index: the value both programs give a layer's product.
   For a row `r` and an output column `q`,
     out (r, q) = ∑ k, act (x (r, k) + b (0, k)) · w (k, q),
   the bias a one-row array added to every row of `x`, `act` applied entrywise before the product.
   `relu0` is the maximum with the value of the all-zero 32-bit word, the activation both programs print. -/
import Idealize.ShloMosaic.Lib.ValueIdx
import Idealize.ShloMosaic.PureOps.Ideal

noncomputable section

open scoped BigOperators

namespace Cert.Dense

open Idealize.ShloMosaic Idealize.ShloMosaic.ValueIdx

/-- The maximum with the value the zero word denotes. -/
def relu0 (v : Ideal .f32) : Ideal .f32 := max v (FloatOps.ofBits (F := Ideal) .f32 0x00000000#32)

/-- `out (r, q) = ∑ k, act (x (r, k) + b (0, k)) · w (k, q)`. -/
def layer (act : Ideal .f32 → Ideal .f32) {n K Q : Nat}
    (x : FVec Ideal (⟨2, ![n, K]⟩ : Shape) .f32) (b : FVec Ideal (⟨2, ![1, K]⟩ : Shape) .f32)
    (w : FVec Ideal (⟨2, ![K, Q]⟩ : Shape) .f32) : FVec Ideal (⟨2, ![n, Q]⟩ : Shape) .f32 :=
  fun i => ∑ k : Fin K, act (x (ix2 (⟨(i 0).val, idx2_lt0 i⟩ : Fin n) k) + b (ix2 (0 : Fin 1) k))
      * w (ix2 k (⟨(i 1).val, idx2_lt1 i⟩ : Fin Q))

/-- The layer read at an index given by its two coordinates. -/
theorem layer_apply (act : Ideal .f32 → Ideal .f32) {n K Q : Nat}
    (x : FVec Ideal (⟨2, ![n, K]⟩ : Shape) .f32) (b : FVec Ideal (⟨2, ![1, K]⟩ : Shape) .f32)
    (w : FVec Ideal (⟨2, ![K, Q]⟩ : Shape) .f32) (r : Fin n) (q : Fin Q) :
    layer act x b w (ix2 r q) = ∑ k : Fin K, act (x (ix2 r k) + b (ix2 (0 : Fin 1) k)) * w (ix2 k q) := rfl

end Cert.Dense

end
-- ==== Proof.KLayer0.lean ====
/- Region 0 of the kernel program: one dense layer with no activation.

   Three arrays enter: an input x of 50000 rows and one column, a 1×1 bias z, weights w of one row and 256 columns.
   Over a grid of ten points, point t takes rows 5000·t … 5000·t + 4999 of x with the whole bias and the whole
   weights, adds the bias to every row, multiplies by the weights with a contraction of length 1 into a zero
   accumulator, and writes rows 5000·t … 5000·t + 4999 of the output. Over the extended reals the output array
   after the region is, index by index,
     out (r, q) = ∑ k < 1, (x (r, k) + z (0, k)) · w (k, q). -/
import proofs.«110405_j18640158064951_1_alg».proof.Proof.Gen.KernelIdeal.Frame
import proofs.«110405_j18640158064951_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

namespace Cert.KernelIdeal.Layer0

/-! ## The product's operand indices

The contraction runs over the one axis of length 1 the two operands share: at output index i and contraction
index q the left operand is read at (i 0, q) and the right operand at (q, i 1). -/

theorem lhs_dot_0 (i : S5000x256.Idx) (q : dot_S5000x1_S1x256_S5000x256_1_0_0_1_n_n.contr.Idx) :
    (dot_S5000x1_S1x256_S5000x256_1_0_0_1_n_n.lhsIdx i q 0).val = (i 0).val := by
  unfold DotDims.lhsIdx
  rw [dif_neg (show ¬(0 : Fin S5000x1.rank) ∈ dot_S5000x1_S1x256_S5000x256_1_0_0_1_n_n.lhsBatch by decide), dif_pos (show (0 : Fin S5000x1.rank) ∈ dot_S5000x1_S1x256_S5000x256_1_0_0_1_n_n.lhsNonContracting by decide)]
  rfl
theorem lhs_dot_1 (i : S5000x256.Idx) (q : dot_S5000x1_S1x256_S5000x256_1_0_0_1_n_n.contr.Idx) :
    (dot_S5000x1_S1x256_S5000x256_1_0_0_1_n_n.lhsIdx i q 1).val = (q ⟨0, by decide⟩).val :=
  dot_S5000x1_S1x256_S5000x256_1_0_0_1_n_n.lhsIdx_val_of_single rfl i q
theorem rhs_dot_0 (i : S5000x256.Idx) (q : dot_S5000x1_S1x256_S5000x256_1_0_0_1_n_n.contr.Idx) :
    (dot_S5000x1_S1x256_S5000x256_1_0_0_1_n_n.rhsIdx i q 0).val = (q ⟨0, by decide⟩).val :=
  dot_S5000x1_S1x256_S5000x256_1_0_0_1_n_n.rhsIdx_val_of_single rfl i q
theorem rhs_dot_1 (i : S5000x256.Idx) (q : dot_S5000x1_S1x256_S5000x256_1_0_0_1_n_n.contr.Idx) :
    (dot_S5000x1_S1x256_S5000x256_1_0_0_1_n_n.rhsIdx i q 1).val = (i 1).val := by
  unfold DotDims.rhsIdx
  rw [dif_neg (show ¬(1 : Fin S1x256.rank) ∈ dot_S5000x1_S1x256_S5000x256_1_0_0_1_n_n.rhsBatch by decide), dif_pos (show (1 : Fin S1x256.rank) ∈ dot_S5000x1_S1x256_S5000x256_1_0_0_1_n_n.rhsNonContracting by decide)]
  rfl

/-- The 1×1 bias block broadcast to 5000 rows of one column reads its single entry everywhere. -/
theorem bias_bcast_apply (x1 : Vec Ideal S1x1 .f32) (p : Fin 5000) (k : Fin 1) :
    broadcastTo S5000x1 x1 broadcasts_S1x1_S5000x1 (ix2 p k) = x1 (ix2 (0 : Fin 1) k) := by
  refine broadcastTo_apply x1 broadcasts_S1x1_S5000x1 (ix2 p k) (ix2 (0 : Fin 1) k) (fun a => ?_)
  match a with
  | ⟨0, _⟩ => rfl
  | ⟨1, _⟩ => show k.val = 0; omega

/-- The body's product at an index: the sum over the one contraction index of (input + bias) times weight. -/
theorem pay_apply (x0 : Vec Ideal S5000x1 .f32) (x1 : Vec Ideal S1x1 .f32) (x2 : Vec Ideal S1x256 .f32)
    (p : Fin 5000) (q : Fin 256) :
    k0_pay1 (F := Ideal) x0 x1 x2 (ix2 p q)
      = ∑ k : Fin 1, (x0 (ix2 p k) + x1 (ix2 (0 : Fin 1) k)) * x2 (ix2 k q) := by
  unfold k0_pay1
  simp only [matmul]
  rw [Ideal.matmul_constant_zero_apply, ← Equiv.sum_comp (contrEquiv1 dot_S5000x1_S1x256_S5000x256_1_0_0_1_n_n 1 rfl rfl).symm]
  refine Finset.sum_congr rfl fun k _ => ?_
  have hk := contrEquiv1_symm_val dot_S5000x1_S1x256_S5000x256_1_0_0_1_n_n 1 rfl rfl k
  have el : dot_S5000x1_S1x256_S5000x256_1_0_0_1_n_n.lhsIdx (ix2 p q) ((contrEquiv1 dot_S5000x1_S1x256_S5000x256_1_0_0_1_n_n 1 rfl rfl).symm k) = ix2 p k := funext fun a => Fin.ext (by
    match a with
    | ⟨0, _⟩ => exact lhs_dot_0 _ _
    | ⟨1, _⟩ => exact (lhs_dot_1 _ _).trans hk)
  have er : dot_S5000x1_S1x256_S5000x256_1_0_0_1_n_n.rhsIdx (ix2 p q) ((contrEquiv1 dot_S5000x1_S1x256_S5000x256_1_0_0_1_n_n 1 rfl rfl).symm k) = ix2 k q := funext fun a => Fin.ext (by
    match a with
    | ⟨0, _⟩ => exact (rhs_dot_0 _ _).trans hk
    | ⟨1, _⟩ => exact rhs_dot_1 _ _)
  rw [el, er, truncf_apply, truncf_apply, addf_apply, shapeCast_self, bias_bcast_apply]

variable (V : (c : Dev nD) → (b : Ref sig .tc) → Buf (Elt Ideal) ((c : Thread nD τ).loc b))

/-! ## From the blocks to the array

Point t of the grid of 10 works on rows 5000·t … 5000·t + 4999 of the input and of the output, with the whole
bias and the whole weights. -/

/-- Every access of the body starts at the origin of its block. -/
theorem origin_eq : (![0, 0] : Fin 2 → Nat) = fun _ => 0 := funext fun a => by fin_cases a <;> rfl

/-- The grid has ten points. -/
theorem points_eq : cfg0.N = 10 := (by decide +kernel : grid0.N = 10)

/-- The block indices at point t: the input and the output move down the rows together, block t at point t; the
    bias and the weights stay at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's product at (p, q) of blocks that read arrays a0, a1, a2 at row r of the input, at the one bias
    entry and at column q of the weights is the layer of those arrays at (r, q). -/
theorem pay_eq_layer (a0 : FVec Ideal S50000x1 .f32) (a1 : FVec Ideal S1x1 .f32) (a2 : FVec Ideal S1x256 .f32)
    (x0 : Vec Ideal S5000x1 .f32) (x1 : Vec Ideal S1x1 .f32) (x2 : Vec Ideal S1x256 .f32)
    (p : Fin 5000) (q : Fin 256) (r : Fin 50000)
    (h0 : ∀ k : Fin 1, x0 (ix2 p k) = a0 (ix2 r k))
    (h1 : ∀ k : Fin 1, x1 (ix2 (0 : Fin 1) k) = a1 (ix2 (0 : Fin 1) k))
    (h2 : ∀ k : Fin 1, x2 (ix2 k q) = a2 (ix2 k q)) :
    k0_pay1 (F := Ideal) x0 x1 x2 (ix2 p q)
      = Cert.Dense.layer (n := 50000) (K := 1) (Q := 256) id a0 a1 a2 (ix2 r q) := by
  rw [pay_apply, Cert.Dense.layer_apply]
  exact Finset.sum_congr rfl fun k _ => by rw [h0 k, h1 k, h2 k]; rfl

/-- What point t writes back is block t of the layer of the three arrays as the region finds them. -/
theorem flushed_eq (c : Dev nD) (t : Fin cfg0.N) :
    (dat0 (F := Ideal) V c).flushed 3 t = ((cfg0.win 3).blk t).view.read (Elt Ideal)
      (Cert.Dense.layer (n := 50000) (K := 1) (Q := 256) id (V c main_arg0) (V c main_v32) (V c main_arg2)) := by
  show (cfg0.win 3).cut (grid0.coords t) ((dat0 V c).after 3 t) = _
  rw [after0_3]
  unfold out0_3
  rw [View.canon_unit_zero origin_eq]
  simp only [View.ld_unit_zero (S := S5000x1) origin_eq, View.ld_unit_zero (S := S1x1) origin_eq,
    View.ld_unit_zero (S := S1x256) origin_eq]
  obtain ⟨e00, e01, e10, e11, e20, e21, e30, e31⟩ := block_index t
  have ht : t.val < 10 := t.isLt
  funext j
  obtain ⟨p, q, rfl⟩ : ∃ (p : Fin 5000) (q : Fin 256), j = ix2 p q := ⟨j 0, j 1, eq_ix2 j⟩
  have hp : p.val < 5000 := p.isLt
  have hrow : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 256 + 1 * q.val = q.val; omega
  show k0_pay1 (F := Ideal) (iblk0 V c 0 t) (iblk0 V c 1 t) (iblk0 V c 2 t) (ix2 p q)
    = Cert.Dense.layer (n := 50000) (K := 1) (Q := 256) id (V c main_arg0) (V c main_v32) (V c main_arg2)
        (((cfg0.win 3).blk t).view.emb (ix2 p q))
  rw [hrow]
  refine pay_eq_layer _ _ _ _ _ _ p q _ (fun k => ?_) (fun k => ?_) (fun k => ?_)
  · show V c main_arg0 (((cfg0.win 0).blk t).view.emb (ix2 p k)) = V c main_arg0 (ix2 (⟨t.val * 5000 + p.val, by omega⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 1 + 1 * k.val = k.val; omega
  · show V c main_v32 (((cfg0.win 1).blk t).view.emb (ix2 (0 : Fin 1) k)) = V c main_v32 (ix2 (0 : Fin 1) k)
    refine congrArg _ (funext fun a => Fin.ext ?_)
    match a with
    | ⟨0, _⟩ => show win0_1.index t (0 : Fin 2) * 1 + 1 * (0 : Fin 1).val = (0 : Fin 1).val; omega
    | ⟨1, _⟩ => show win0_1.index t (1 : Fin 2) * 1 + 1 * k.val = k.val; omega
  · show V c main_arg2 (((cfg0.win 2).blk t).view.emb (ix2 k q)) = V c main_arg2 (ix2 k q)
    refine congrArg _ (funext fun a => Fin.ext ?_)
    match a with
    | ⟨0, _⟩ => show win0_2.index t (0 : Fin 2) * 1 + 1 * k.val = k.val; omega
    | ⟨1, _⟩ => show win0_2.index t (1 : Fin 2) * 256 + 1 * q.val = q.val; omega

/-- An index of the output array is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v33).slice (win0_3.rect t)).set ↔ _
  rw [View.set_slice_whole, Rect.mem_set_unit]
  exact Iff.rfl

/-- Row r of the output is in the block of point r / 5000, so the ten blocks cover the array. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 10) points_eq.symm⟩, rfl⟩
  obtain ⟨-, -, -, -, -, -, e30, e31⟩ := block_index t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The output array after the region is the layer of the three arrays as the region finds them, with no
    activation: out (r, q) = ∑ k < 1, (x (r, k) + z (0, k)) · w (k, q). -/
theorem arr_eq (c : Dev nD) :
    (Gen.dat0 (F := Ideal) V c).arrAt 3 cfg0.N
      = Cert.Dense.layer (n := 50000) (K := 1) (Q := 256) id (V c main_arg0) (V c main_v32) (V c main_arg2) :=
  (dat0 (F := Ideal) V c).arrAt_eq_of_cover 3 _ (fun t _ => flushed_eq V c t) cover

end Cert.KernelIdeal.Layer0

end
-- ==== Proof.RefLayers.lean ====
/- Each dense layer of the reference program, read at an index: the product of the activated, biased input with the
   weights is the one function `Cert.Dense.layer` of the layer's operands. -/
import proofs.«110405_j18640158064951_1_alg».proof.Proof.RefRead
import proofs.«110405_j18640158064951_1_alg».proof.Proof.Dense
import Idealize.ShloMosaic.Lib.ValueIdx
import Idealize.ShloMosaic.Lib.Pipeline.Value
import Idealize.ShloMosaic.PureOps.Ideal.Laws

noncomputable section

open scoped BigOperators

namespace Cert.ReferenceIdeal.Layers

open Cert.ReferenceIdeal Cert.ReferenceIdeal.ReadP Idealize.ShloMosaic Idealize.ShloMosaic.ValueIdx

/-! ## Indices from their coordinates

An index of a rank-2 array is determined by its two coordinates, one of a rank-1 array by its one coordinate. The
reference's composed index functions are identified with `ix2` / `ix1` through these two facts. -/

/-- A rank-2 index whose coordinates are `a` and `b` is `ix2 a b`. -/
theorem eq_ix2_of_val {n0 n1 : Nat} (j : (⟨2, ![n0, n1]⟩ : Shape).Idx) (a : Fin n0) (b : Fin n1)
    (h0 : (j 0).val = a.val) (h1 : (j 1).val = b.val) : j = ix2 a b :=
  funext fun d => Fin.ext (by
    match d with
    | ⟨0, _⟩ => exact h0
    | ⟨1, _⟩ => exact h1)

/-- A rank-1 index whose coordinate is `a` is `ix1 a`. -/
theorem eq_ix1_of_val {n : Nat} (j : (⟨1, ![n]⟩ : Shape).Idx) (a : Fin n) (h0 : (j 0).val = a.val) : j = ix1 a :=
  funext fun d => Fin.ext (by
    match d with
    | ⟨0, _⟩ => exact h0)

/-! ## The shape the layers share -/

/-- An array whose entry at row `r` and column `q` is `∑ k, act (x (r, k) + b (0, k)) · w (k, q)` is the dense
    layer of `x`, `b`, `w`: two arrays with the same entry at every pair of coordinates are equal. -/
theorem eq_layer_of_entries (act : Ideal .f32 → Ideal .f32) {n K Q : Nat}
    (x : FVec Ideal (⟨2, ![n, K]⟩ : Shape) .f32) (b : FVec Ideal (⟨2, ![1, K]⟩ : Shape) .f32)
    (w : FVec Ideal (⟨2, ![K, Q]⟩ : Shape) .f32) (out : FVec Ideal (⟨2, ![n, Q]⟩ : Shape) .f32)
    (h : ∀ (r : Fin n) (q : Fin Q),
      out (ix2 r q) = ∑ k : Fin K, act (x (ix2 r k) + b (ix2 (0 : Fin 1) k)) * w (ix2 k q)) :
    out = Cert.Dense.layer act x b w := by
  funext i
  obtain ⟨r, q, rfl⟩ : ∃ (r : Fin n) (q : Fin Q), i = ix2 r q := ⟨i 0, i 1, eq_ix2 i⟩
  rw [h r q, Cert.Dense.layer_apply]

/-! ## Layer 0: the features times the first weights

The contraction has one term; the other side adds a zero to every feature first, and `x + 0 = x`. -/

theorem lidx_v31 (r : Fin 50000) (q : Fin 256) (k : Fin 1) : lidx_main_v31 (ix2 r q) k = ix2 r k :=
  eq_ix2_of_val _ r k rfl rfl
theorem ridx_v31 (r : Fin 50000) (q : Fin 256) (k : Fin 1) : ridx_main_v31 (ix2 r q) k = ix2 k q :=
  eq_ix2_of_val _ k q rfl rfl

theorem layer0 (x0 : (⟨S50000x1, .f32⟩ : BufTy).Contents (Elt Ideal)) (x2 : (⟨S1x256, .f32⟩ : BufTy).Contents (Elt Ideal))
    (z : (⟨S1x1, .f32⟩ : BufTy).Contents (Elt Ideal))
    (hz : ∀ j : S1x1.Idx, z j = FloatOps.ofBits (F := Ideal) .f32 0x00000000#32) :
    ReadP.val_main_v31 (F := Ideal) x0 x2 = Cert.Dense.layer (n := 50000) (K := 1) (Q := 256) id x0 z x2 := by
  refine eq_layer_of_entries id x0 z x2 _ fun r q => ?_
  rw [val_main_v31_apply]
  refine Finset.sum_congr rfl fun k _ => ?_
  rw [lidx_v31 r q k, ridx_v31 r q k, hz (ix2 (0 : Fin 1) k), Ideal.ofBits_def, Ideal.ofBits_zero_f32]
  show x0 (ix2 r k) * x2 (ix2 k q) = (x0 (ix2 r k) + 0) * x2 (ix2 k q)
  rw [add_zero]

/-! ## Layer 1: relu (agg1 + bias x3) times x4 -/

theorem lidx_v49 (r : Fin 50000) (q : Fin 128) (k : Fin 256) : lidx_main_v49 (ix2 r q) k = ix2 r k :=
  eq_ix2_of_val _ r k rfl rfl
theorem ridx_v49 (r : Fin 50000) (q : Fin 128) (k : Fin 256) : ridx_main_v49 (ix2 r q) k = ix2 k q :=
  eq_ix2_of_val _ k q rfl rfl
theorem idx_v46 (r : Fin 50000) (k : Fin 256) : idx_main_v46 (ix2 r k) = ix2 (0 : Fin 1) k :=
  eq_ix2_of_val _ 0 k rfl rfl
theorem idx_v45 (k : Fin 256) : idx_main_v45 (ix2 (0 : Fin 1) k) = ix1 k :=
  eq_ix1_of_val _ k rfl

theorem layer1 (x0 : (⟨S50000x1, .f32⟩ : BufTy).Contents (Elt Ideal)) (x1 : (⟨S2x800000, .i32⟩ : BufTy).Contents (Elt Ideal))
    (x2 : (⟨S1x256, .f32⟩ : BufTy).Contents (Elt Ideal)) (x3 : (⟨S256, .f32⟩ : BufTy).Contents (Elt Ideal))
    (x4 : (⟨S256x128, .f32⟩ : BufTy).Contents (Elt Ideal))
    (b : (⟨S1x256, .f32⟩ : BufTy).Contents (Elt Ideal)) (hb : ∀ k : Fin 256, b (ix2 (0 : Fin 1) k) = x3 (ix1 k)) :
    ReadP.val_main_v49 (F := Ideal) x0 x1 x2 x3 x4
      = Cert.Dense.layer (n := 50000) (K := 256) (Q := 128) Cert.Dense.relu0 (ReadP.val_main_v44 (F := Ideal) x0 x1 x2) b x4 := by
  refine eq_layer_of_entries Cert.Dense.relu0 _ b x4 _ fun r q => ?_
  rw [val_main_v49_apply]
  refine Finset.sum_congr rfl fun k _ => ?_
  rw [lidx_v49 r q k, ridx_v49 r q k, val_main_v48_apply, val_main_v47_apply, val_main_v46_apply, val_main_v45_apply,
    val_main_call1_v0_apply, val_main_call1_cst_apply, idx_v46 r k, idx_v45 k, hb k]
  rfl

/-! ## Layer 2: relu (agg2 + bias x5) times x6 -/

theorem lidx_v67 (r : Fin 50000) (q : Fin 64) (k : Fin 128) : lidx_main_v67 (ix2 r q) k = ix2 r k :=
  eq_ix2_of_val _ r k rfl rfl
theorem ridx_v67 (r : Fin 50000) (q : Fin 64) (k : Fin 128) : ridx_main_v67 (ix2 r q) k = ix2 k q :=
  eq_ix2_of_val _ k q rfl rfl
theorem idx_v64 (r : Fin 50000) (k : Fin 128) : idx_main_v64 (ix2 r k) = ix2 (0 : Fin 1) k :=
  eq_ix2_of_val _ 0 k rfl rfl
theorem idx_v63 (k : Fin 128) : idx_main_v63 (ix2 (0 : Fin 1) k) = ix1 k :=
  eq_ix1_of_val _ k rfl

theorem layer2 (x0 : (⟨S50000x1, .f32⟩ : BufTy).Contents (Elt Ideal)) (x1 : (⟨S2x800000, .i32⟩ : BufTy).Contents (Elt Ideal))
    (x2 : (⟨S1x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S128x64, .f32⟩ : BufTy).Contents (Elt Ideal))
    (b : (⟨S1x128, .f32⟩ : BufTy).Contents (Elt Ideal)) (hb : ∀ k : Fin 128, b (ix2 (0 : Fin 1) k) = x5 (ix1 k)) :
    ReadP.val_main_v67 (F := Ideal) x0 x1 x2 x3 x4 x5 x6
      = Cert.Dense.layer (n := 50000) (K := 128) (Q := 64) Cert.Dense.relu0 (ReadP.val_main_v62 (F := Ideal) x0 x1 x2 x3 x4) b x6 := by
  refine eq_layer_of_entries Cert.Dense.relu0 _ b x6 _ fun r q => ?_
  rw [val_main_v67_apply]
  refine Finset.sum_congr rfl fun k _ => ?_
  rw [lidx_v67 r q k, ridx_v67 r q k, val_main_v66_apply, val_main_v65_apply, val_main_v64_apply, val_main_v63_apply,
    val_main_call2_v0_apply, val_main_call2_cst_apply, idx_v64 r k, idx_v63 k, hb k]
  rfl

/-! ## Layer 3: relu (agg3 + bias x7) times x8 -/

theorem lidx_v85 (r : Fin 50000) (q : Fin 1) (k : Fin 64) : lidx_main_v85 (ix2 r q) k = ix2 r k :=
  eq_ix2_of_val _ r k rfl rfl
theorem ridx_v85 (r : Fin 50000) (q : Fin 1) (k : Fin 64) : ridx_main_v85 (ix2 r q) k = ix2 k q :=
  eq_ix2_of_val _ k q rfl rfl
theorem idx_v82 (r : Fin 50000) (k : Fin 64) : idx_main_v82 (ix2 r k) = ix2 (0 : Fin 1) k :=
  eq_ix2_of_val _ 0 k rfl rfl
theorem idx_v81 (k : Fin 64) : idx_main_v81 (ix2 (0 : Fin 1) k) = ix1 k :=
  eq_ix1_of_val _ k rfl

theorem layer3 (x0 : (⟨S50000x1, .f32⟩ : BufTy).Contents (Elt Ideal)) (x1 : (⟨S2x800000, .i32⟩ : BufTy).Contents (Elt Ideal))
    (x2 : (⟨S1x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S64x1, .f32⟩ : BufTy).Contents (Elt Ideal))
    (b : (⟨S1x64, .f32⟩ : BufTy).Contents (Elt Ideal)) (hb : ∀ k : Fin 64, b (ix2 (0 : Fin 1) k) = x7 (ix1 k)) :
    ReadP.val_main_v85 (F := Ideal) x0 x1 x2 x3 x4 x5 x6 x7 x8
      = Cert.Dense.layer (n := 50000) (K := 64) (Q := 1) Cert.Dense.relu0 (ReadP.val_main_v80 (F := Ideal) x0 x1 x2 x3 x4 x5 x6) b x8 := by
  refine eq_layer_of_entries Cert.Dense.relu0 _ b x8 _ fun r q => ?_
  rw [val_main_v85_apply]
  refine Finset.sum_congr rfl fun k _ => ?_
  rw [lidx_v85 r q k, ridx_v85 r q k, val_main_v84_apply, val_main_v83_apply, val_main_v82_apply, val_main_v81_apply,
    val_main_call3_v0_apply, val_main_call3_cst_apply, idx_v82 r k, idx_v81 k, hb k]
  rfl

end Cert.ReferenceIdeal.Layers

end
-- ==== Proof.KFold1.lean ====
/- The kernel program from its first region to the entry of its second.
   The first region's output is the input times the first weight matrix (its 1×1 bias is zero): the reference program's
   first matrix product. The host operations that follow gather the rows of that product at the edges' sources, scale them
   by the edge weights and add them up at the edges' destinations: operation for operation the reference's first
   aggregation, so the aggregate the second region reads is the reference's. Its bias operand is the first bias vector
   laid out as one row. -/
import proofs.«110405_j18640158064951_1_alg».proof.Proof.KFold0
import proofs.«110405_j18640158064951_1_alg».proof.Proof.KLayer0
import proofs.«110405_j18640158064951_1_alg».proof.Proof.RefLayers
import Idealize.ShloMosaic.Lib.Pipeline.Value
import Idealize.ShloMosaic.Lib.ValueIdx

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A vector laid out as one row: the row's entry `k` is the vector's entry `k` (same row-major position). -/
theorem row_of_vec {α : Type} {n : Nat} (x : (⟨1, ![n]⟩ : Shape).Idx → α)
    (h : (⟨1, ![n]⟩ : Shape).ShapeCasts (⟨2, ![1, n]⟩ : Shape)) (k : Fin n) :
    shapeCast (⟨2, ![1, n]⟩ : Shape) x h (ix2 (0 : Fin 1) k) = x (ix1 k) :=
  shapeCast_apply x h _ _ (by
    rw [Shape.rowMajor_val_one, Shape.rowMajor_val_two]
    show k.val = (0 : Fin 1).val * n + k.val
    simp)

/-! ## At the first region's exit -/

/-- The first region's output is the reference's first matrix product. -/
theorem w4_v33 : W4 m ρ c (Proc.devRef .tc main_v33)
    = val_main_v31 (F := Ideal) (m ((c : Thread nD τ).loc main_arg0)) (m ((c : Thread nD τ).loc main_arg2)) := by
  refine (W4_arr m ρ c 3).trans ?_
  rw [Cert.KernelIdeal.Layer0.arr_eq (V3 m ρ) c]
  show Cert.Dense.layer (n := 50000) (K := 1) (Q := 256) id (W3 m ρ c (Proc.devRef .tc main_arg0))
      (W3 m ρ c (Proc.devRef .tc main_v32)) (W3 m ρ c (Proc.devRef .tc main_arg2)) = _
  rw [w3_arg0 m ρ c, w3_arg2 m ρ c]
  exact (Cert.ReferenceIdeal.Layers.layer0 _ _ _ (w3_v32 m ρ c)).symm

theorem w4_v3 : W4 m ρ c (Proc.devRef .tc main_v3) = val_main_v3 (F := Ideal) (m ((c : Thread nD τ).loc main_arg1)) :=
  (W4_of_ne m ρ c main_v3 (by decide)).trans (w3_v3 m ρ c)
theorem w4_v6 : W4 m ρ c (Proc.devRef .tc main_v6) = val_main_v6 (F := Ideal) (m ((c : Thread nD τ).loc main_arg1)) :=
  (W4_of_ne m ρ c main_v6 (by decide)).trans (w3_v6 m ρ c)
theorem w4_v30 : W4 m ρ c (Proc.devRef .tc main_v30) = val_main_v30 (F := Ideal) (m ((c : Thread nD τ).loc main_arg1)) :=
  (W4_of_ne m ρ c main_v30 (by decide)).trans (w3_v30 m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)
theorem w4_arg8 : W4 m ρ c (Proc.devRef .tc main_arg8) = m ((c : Thread nD τ).loc main_arg8) :=
  (W4_of_ne m ρ c main_arg8 (by decide)).trans (w3_arg8 m ρ c)
theorem w4_arg9 : W4 m ρ c (Proc.devRef .tc main_arg9) = m ((c : Thread nD τ).loc main_arg9) :=
  (W4_of_ne m ρ c main_arg9 (by decide)).trans (w3_arg9 m ρ c)

/-! ## When the second region is entered -/

/-- The aggregate the second region reads is the reference's first aggregate. -/
theorem w5_v46 : W5 m ρ c (Proc.devRef .tc main_v46)
    = val_main_v44 (F := Ideal) (m ((c : Thread nD τ).loc main_arg0)) (m ((c : Thread nD τ).loc main_arg1)) (m ((c : Thread nD τ).loc main_arg2)) := by
  have h33 := w4_v33 m ρ c
  have h3 := w4_v3 m ρ c
  have h6 := w4_v6 m ρ c
  have h30 := w4_v30 m ρ c
  dsimp only [W5, hostOps1]
  generalize W4 m ρ c = V at h33 h3 h6 h30 ⊢
  after_results_simp
  rw [h33, h3, h6, h30]
  rfl

/-- Its bias operand is the first bias vector as one row. -/
theorem w5_v47 (k : Fin 256) :
    W5 m ρ c (Proc.devRef .tc main_v47) (ix2 (0 : Fin 1) k) = m ((c : Thread nD τ).loc main_arg3) (ix1 k) := by
  have h := w4_arg3 m ρ c
  have e : W5 m ρ c (Proc.devRef .tc main_v47)
      = fun i => shapeCast S1x256 (W4 m ρ c (Proc.devRef .tc main_arg3)) shapeCasts_S256_S1x256 i := by
    dsimp only [W5, hostOps1]
    generalize W4 m ρ c = V
    after_results_simp
    rfl
  rw [e, h]
  exact row_of_vec _ _ k

theorem w5_v3 : W5 m ρ c (Proc.devRef .tc main_v3) = val_main_v3 (F := Ideal) (m ((c : Thread nD τ).loc main_arg1)) :=
  (show W5 m ρ c (Proc.devRef .tc main_v3) = W4 m ρ c (Proc.devRef .tc main_v3) by kept_by_host).trans (w4_v3 m ρ c)
theorem w5_v6 : W5 m ρ c (Proc.devRef .tc main_v6) = val_main_v6 (F := Ideal) (m ((c : Thread nD τ).loc main_arg1)) :=
  (show W5 m ρ c (Proc.devRef .tc main_v6) = W4 m ρ c (Proc.devRef .tc main_v6) by kept_by_host).trans (w4_v6 m ρ c)
theorem w5_v30 : W5 m ρ c (Proc.devRef .tc main_v30) = val_main_v30 (F := Ideal) (m ((c : Thread nD τ).loc main_arg1)) :=
  (show W5 m ρ c (Proc.devRef .tc main_v30) = W4 m ρ c (Proc.devRef .tc main_v30) by kept_by_host).trans (w4_v30 m ρ c)
theorem w5_arg4 : W5 m ρ c (Proc.devRef .tc main_arg4) = m ((c : Thread nD τ).loc main_arg4) :=
  (show W5 m ρ c (Proc.devRef .tc main_arg4) = W4 m ρ c (Proc.devRef .tc main_arg4) by kept_by_host).trans (w4_arg4 m ρ c)
theorem w5_arg5 : W5 m ρ c (Proc.devRef .tc main_arg5) = m ((c : Thread nD τ).loc main_arg5) :=
  (show W5 m ρ c (Proc.devRef .tc main_arg5) = W4 m ρ c (Proc.devRef .tc main_arg5) by kept_by_host).trans (w4_arg5 m ρ c)
theorem w5_arg6 : W5 m ρ c (Proc.devRef .tc main_arg6) = m ((c : Thread nD τ).loc main_arg6) :=
  (show W5 m ρ c (Proc.devRef .tc main_arg6) = W4 m ρ c (Proc.devRef .tc main_arg6) by kept_by_host).trans (w4_arg6 m ρ c)
theorem w5_arg7 : W5 m ρ c (Proc.devRef .tc main_arg7) = m ((c : Thread nD τ).loc main_arg7) :=
  (show W5 m ρ c (Proc.devRef .tc main_arg7) = W4 m ρ c (Proc.devRef .tc main_arg7) by kept_by_host).trans (w4_arg7 m ρ c)
theorem w5_arg8 : W5 m ρ c (Proc.devRef .tc main_arg8) = m ((c : Thread nD τ).loc main_arg8) :=
  (show W5 m ρ c (Proc.devRef .tc main_arg8) = W4 m ρ c (Proc.devRef .tc main_arg8) by kept_by_host).trans (w4_arg8 m ρ c)
theorem w5_arg9 : W5 m ρ c (Proc.devRef .tc main_arg9) = m ((c : Thread nD τ).loc main_arg9) :=
  (show W5 m ρ c (Proc.devRef .tc main_arg9) = W4 m ρ c (Proc.devRef .tc main_arg9) by kept_by_host).trans (w4_arg9 m ρ c)

end Cert.KernelIdeal.Fold

end
-- ==== Proof.KLayer1.lean ====
/- Region 1's output array, index by index.
   The region walks ten points; point t holds rows 5000·t … 5000·t + 4999 of the input x : [50000, 256], the whole
   one-row bias b : [1, 256] and the whole weights w : [256, 128], and leaves rows 5000·t … of the output : [50000, 128].
   At row p and column q of its block the body's value is
     ∑ k < 256, max (x (p, k) + b (0, k)) 0 · w (k, q):
   the bias row is added to every row, the maximum with zero is taken entrywise, both casts to the narrower float
   type are the identity on the extended reals, and the product accumulates into zero. Each block entry depends on
   one row of x's block, the bias row and one column of w. The ten blocks tile the output's rows, so the array after
   the region is the dense layer of the three arrays the region found. -/
import proofs.«110405_j18640158064951_1_alg».proof.Proof.Gen.KernelIdeal.Frame
import proofs.«110405_j18640158064951_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

namespace Cert.KernelIdeal.Layer1

/-! ## The product's operand indices, axis by axis -/

/-- The left operand's row is the output's row. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column is the contracted position. -/
theorem lhs_contr (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row is the contracted position. -/
theorem rhs_contr (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column is the output's column. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## The body's value at an index of its block -/

/-- The product into the zero accumulator at row p and column q: the sum over the contracted axis of the left
    operand's row p times the right operand's column q. -/
theorem matmul_at (a : FVec Ideal S5000x256 .bf16) (w : FVec Ideal S256x128 .bf16) (p : Fin 5000) (q : Fin 128) :
    matmul dot_S5000x256_S256x128_S5000x128_1_0_0_1_n_n none a w (constant (F := Ideal) S5000x128 .f32 0x00000000#32) (ix2 p q)
      = ∑ k : Fin 256, a (ix2 p k) * w (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_contr _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_contr _ _).trans hk
    | ⟨1, _⟩ => exact rhs_col _ _)
  rw [el, er]

/-- The body's value at row p and column q of its block depends on row p of the x block, the bias row and column q of
    the weights: the same-shape casts are the identity, the bias row is read at every row, the maximum is entrywise. -/
theorem payload_at (x0 : Vec Ideal S5000x256 .f32) (x1 : Vec Ideal S1x256 .f32) (x2 : Vec Ideal S256x128 .f32) (p : Fin 5000) (q : Fin 128) :
    k1_pay1 x0 x1 x2 (ix2 p q) = ∑ k : Fin 256, Cert.Dense.relu0 (x0 (ix2 p k) + x1 (ix2 (0 : Fin 1) k)) * x2 (ix2 k q) := by
  unfold k1_pay1
  refine (matmul_at _ _ p q).trans ?_
  refine Finset.sum_congr rfl fun k _ => ?_
  rw [truncf_apply, truncf_apply, maximumf_apply, addf_apply, broadcast_apply, shapeCast_self, shapeCast_self, broadcastTo_1b_ab_apply]
  rfl

/-- The block's value at (p, q) is the layer's value at an index i of the arrays, wherever row p of the x block is
    row i 0 of x, the bias block is the bias, and column q of the weights block is column i 1 of the weights. -/
theorem block_value (X0 : FVec Ideal (⟨2, ![50000, 256]⟩ : Shape) .f32) (X1 : FVec Ideal (⟨2, ![1, 256]⟩ : Shape) .f32)
    (X2 : FVec Ideal (⟨2, ![256, 128]⟩ : Shape) .f32)
    (x0 : Vec Ideal S5000x256 .f32) (x1 : Vec Ideal S1x256 .f32) (x2 : Vec Ideal S256x128 .f32)
    (i : (⟨2, ![50000, 128]⟩ : Shape).Idx) (p : Fin 5000) (q : Fin 128)
    (h0 : ∀ k : Fin 256, x0 (ix2 p k) = X0 (ix2 (⟨(i 0).val, idx2_lt0 i⟩ : Fin 50000) k))
    (h1 : ∀ k : Fin 256, x1 (ix2 (0 : Fin 1) k) = X1 (ix2 (0 : Fin 1) k))
    (h2 : ∀ k : Fin 256, x2 (ix2 k q) = X2 (ix2 k (⟨(i 1).val, idx2_lt1 i⟩ : Fin 128))) :
    k1_pay1 x0 x1 x2 (ix2 p q) = Cert.Dense.layer Cert.Dense.relu0 X0 X1 X2 i := by
  rw [payload_at]
  unfold Cert.Dense.layer
  exact Finset.sum_congr rfl fun k _ => by rw [h0, h1, h2]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: x's and the output's block row index is the point, every other block index is 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row index of the output is some point's. -/
theorem index_onto : ∀ r : Fin 10, ∃ t : Fin cfg1.N, win1_3.index t = ![r.val, 0] :=
  (by decide +kernel : ∀ r : Fin 10, ∃ t : Fin grid1.N, win1_3.index t = ![r.val, 0])

/-- What point t writes back is block t of the layer of the arrays the region found: an array coordinate under a
    block is the block index times the block's size plus the coordinate inside the block. -/
theorem flushed_eq (c : Dev nD) (t : Fin cfg1.N) :
    (dat1 (F := Ideal) V c).flushed 3 t = ((cfg1.win 3).blk t).view.read (Elt Ideal)
      (Cert.Dense.layer (n := 50000) (K := 256) (Q := 128) Cert.Dense.relu0 (V c main_v46) (V c main_v47) (V c main_arg4)) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S1x256) zero_offsets, View.ld_unit_zero (S := S256x128) zero_offsets]
  funext j
  obtain ⟨p, q, rfl⟩ : ∃ (p : Fin 5000) (q : Fin 128), j = ix2 p q := ⟨j 0, j 1, eq_ix2 j⟩
  obtain ⟨e00, e01, e10, e11, e20, e21, e30, e31⟩ := index_facts t
  show k1_pay1 (iblk1 V c 0 t) (iblk1 V c 1 t) (iblk1 V c 2 t) (ix2 p q)
      = Cert.Dense.layer Cert.Dense.relu0 (V c main_v46) (V c main_v47) (V c main_arg4) (((cfg1.win 3).blk t).view.emb (ix2 p q))
  refine block_value _ _ _ _ _ _ _ p q (fun k => ?_) (fun k => ?_) (fun k => ?_)
  · show V c main_v46 (((cfg1.win 0).blk t).view.emb (ix2 p k)) = V c main_v46 _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 256 + 1 * k.val = k.val; omega
  · show V c main_v47 (((cfg1.win 1).blk t).view.emb (ix2 (0 : Fin 1) k)) = V c main_v47 _
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  · show V c main_arg4 (((cfg1.win 2).blk t).view.emb (ix2 k q)) = V c main_arg4 _
    refine congrArg _ (funext fun a => Fin.ext ?_)
    match a with
    | ⟨0, _⟩ => show win1_2.index t (0 : Fin 2) * 256 + 1 * k.val = k.val; omega
    | ⟨1, _⟩ => show win1_2.index t (1 : Fin 2) * 128 + 1 * q.val = win1_3.index t (1 : Fin 2) * 128 + 1 * q.val; omega

/-- An index of the output array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Row r of the output lies in the block of the point whose block row index is r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region is the dense layer of the three arrays the region found. -/
theorem arr_eq (c : Dev nD) :
    (Gen.dat1 (F := Ideal) V c).arrAt 3 cfg1.N
      = Cert.Dense.layer (n := 50000) (K := 256) (Q := 128) Cert.Dense.relu0 (V c main_v46) (V c main_v47) (V c main_arg4) :=
  (Gen.dat1 (F := Ideal) V c).arrAt_eq_of_cover 3 _ (fun t _ => flushed_eq V c t) covered

end Cert.KernelIdeal.Layer1

end
-- ==== Proof.KFold2.lean ====
/- The kernel program from its second region to the entry of its third.
   The second region adds the first bias to the first aggregate, applies the activation and multiplies by the second weight
   matrix: the reference's bias add, activation and second matrix product. The host operations that follow are, operation
   for operation, the reference's second aggregation; the third region's bias operand is the second bias vector as one row. -/
import proofs.«110405_j18640158064951_1_alg».proof.Proof.KFold1
import proofs.«110405_j18640158064951_1_alg».proof.Proof.KLayer1
import proofs.«110405_j18640158064951_1_alg».proof.Proof.RefLayers
import Idealize.ShloMosaic.Lib.Pipeline.Value
import Idealize.ShloMosaic.Lib.ValueIdx

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## At the region's exit -/

/-- The region's output is the reference's matrix product of the activated, biased aggregate with the weights. -/
theorem w6_v48 : W6 m ρ c (Proc.devRef .tc main_v48)
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ?_
  rw [Cert.KernelIdeal.Layer1.arr_eq (V5 m ρ) c]
  show Cert.Dense.layer (n := 50000) (K := 256) (Q := 128) Cert.Dense.relu0 (W5 m ρ c (Proc.devRef .tc main_v46))
      (W5 m ρ c (Proc.devRef .tc main_v47)) (W5 m ρ c (Proc.devRef .tc main_arg4)) = _
  rw [w5_v46 m ρ c, w5_arg4 m ρ c]
  exact (Cert.ReferenceIdeal.Layers.layer1 _ _ _ _ _ _ (w5_v47 m ρ c)).symm

theorem w6_v3 : W6 m ρ c (Proc.devRef .tc main_v3) = val_main_v3 (F := Ideal) (m ((c : Thread nD τ).loc main_arg1)) :=
  (W6_of_ne m ρ c main_v3 (by decide)).trans (w5_v3 m ρ c)
theorem w6_v6 : W6 m ρ c (Proc.devRef .tc main_v6) = val_main_v6 (F := Ideal) (m ((c : Thread nD τ).loc main_arg1)) :=
  (W6_of_ne m ρ c main_v6 (by decide)).trans (w5_v6 m ρ c)
theorem w6_v30 : W6 m ρ c (Proc.devRef .tc main_v30) = val_main_v30 (F := Ideal) (m ((c : Thread nD τ).loc main_arg1)) :=
  (W6_of_ne m ρ c main_v30 (by decide)).trans (w5_v30 m ρ c)
theorem w6_arg5 : W6 m ρ c (Proc.devRef .tc main_arg5) = m ((c : Thread nD τ).loc main_arg5) :=
  (W6_of_ne m ρ c main_arg5 (by decide)).trans (w5_arg5 m ρ c)
theorem w6_arg6 : W6 m ρ c (Proc.devRef .tc main_arg6) = m ((c : Thread nD τ).loc main_arg6) :=
  (W6_of_ne m ρ c main_arg6 (by decide)).trans (w5_arg6 m ρ c)
theorem w6_arg7 : W6 m ρ c (Proc.devRef .tc main_arg7) = m ((c : Thread nD τ).loc main_arg7) :=
  (W6_of_ne m ρ c main_arg7 (by decide)).trans (w5_arg7 m ρ c)
theorem w6_arg8 : W6 m ρ c (Proc.devRef .tc main_arg8) = m ((c : Thread nD τ).loc main_arg8) :=
  (W6_of_ne m ρ c main_arg8 (by decide)).trans (w5_arg8 m ρ c)
theorem w6_arg9 : W6 m ρ c (Proc.devRef .tc main_arg9) = m ((c : Thread nD τ).loc main_arg9) :=
  (W6_of_ne m ρ c main_arg9 (by decide)).trans (w5_arg9 m ρ c)

/-! ## When the next region is entered -/

/-- The aggregate the next region reads is the reference's aggregate of this layer's product. -/
theorem w7_v61 : W7 m ρ c (Proc.devRef .tc main_v61)
    = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have ho := w6_v48 m ρ c
  have h3 := w6_v3 m ρ c
  have h6 := w6_v6 m ρ c
  have h30 := w6_v30 m ρ c
  dsimp only [W7, hostOps2]
  generalize W6 m ρ c = V at ho h3 h6 h30 ⊢
  after_results_simp
  rw [ho, h3, h6, h30]
  rfl

/-- Its bias operand is the next bias vector as one row. -/
theorem w7_v62 (k : Fin 128) :
    W7 m ρ c (Proc.devRef .tc main_v62) (ix2 (0 : Fin 1) k) = m ((c : Thread nD τ).loc main_arg5) (ix1 k) := by
  have h := w6_arg5 m ρ c
  have e : W7 m ρ c (Proc.devRef .tc main_v62)
      = fun i => shapeCast S1x128 (W6 m ρ c (Proc.devRef .tc main_arg5)) shapeCasts_S128_S1x128 i := by
    dsimp only [W7, hostOps2]
    generalize W6 m ρ c = V
    after_results_simp
    rfl
  rw [e, h]
  exact row_of_vec _ _ k

theorem w7_v3 : W7 m ρ c (Proc.devRef .tc main_v3) = val_main_v3 (F := Ideal) (m ((c : Thread nD τ).loc main_arg1)) :=
  (show W7 m ρ c (Proc.devRef .tc main_v3) = W6 m ρ c (Proc.devRef .tc main_v3) by kept_by_host).trans (w6_v3 m ρ c)
theorem w7_v6 : W7 m ρ c (Proc.devRef .tc main_v6) = val_main_v6 (F := Ideal) (m ((c : Thread nD τ).loc main_arg1)) :=
  (show W7 m ρ c (Proc.devRef .tc main_v6) = W6 m ρ c (Proc.devRef .tc main_v6) by kept_by_host).trans (w6_v6 m ρ c)
theorem w7_v30 : W7 m ρ c (Proc.devRef .tc main_v30) = val_main_v30 (F := Ideal) (m ((c : Thread nD τ).loc main_arg1)) :=
  (show W7 m ρ c (Proc.devRef .tc main_v30) = W6 m ρ c (Proc.devRef .tc main_v30) by kept_by_host).trans (w6_v30 m ρ c)
theorem w7_arg6 : W7 m ρ c (Proc.devRef .tc main_arg6) = m ((c : Thread nD τ).loc main_arg6) :=
  (show W7 m ρ c (Proc.devRef .tc main_arg6) = W6 m ρ c (Proc.devRef .tc main_arg6) by kept_by_host).trans (w6_arg6 m ρ c)
theorem w7_arg7 : W7 m ρ c (Proc.devRef .tc main_arg7) = m ((c : Thread nD τ).loc main_arg7) :=
  (show W7 m ρ c (Proc.devRef .tc main_arg7) = W6 m ρ c (Proc.devRef .tc main_arg7) by kept_by_host).trans (w6_arg7 m ρ c)
theorem w7_arg8 : W7 m ρ c (Proc.devRef .tc main_arg8) = m ((c : Thread nD τ).loc main_arg8) :=
  (show W7 m ρ c (Proc.devRef .tc main_arg8) = W6 m ρ c (Proc.devRef .tc main_arg8) by kept_by_host).trans (w6_arg8 m ρ c)
theorem w7_arg9 : W7 m ρ c (Proc.devRef .tc main_arg9) = m ((c : Thread nD τ).loc main_arg9) :=
  (show W7 m ρ c (Proc.devRef .tc main_arg9) = W6 m ρ c (Proc.devRef .tc main_arg9) by kept_by_host).trans (w6_arg9 m ρ c)

end Cert.KernelIdeal.Fold

end
-- ==== Proof.KLayer2.lean ====
/- Region 2's output array, index by index.
   The region walks ten points; point t holds rows 5000·t … 5000·t + 4999 of the input x : [50000, 128], the whole
   one-row bias b : [1, 128] and the whole weights w : [128, 64], and leaves rows 5000·t … of the output : [50000, 64].
   At row p and column q of its block the body's value is
     ∑ k < 128, max (x (p, k) + b (0, k)) 0 · w (k, q):
   the bias row is added to every row, the maximum with zero is taken entrywise, both casts to the narrower float
   type are the identity on the extended reals, and the product accumulates into zero. Each block entry depends on
   one row of x's block, the bias row and one column of w. The ten blocks tile the output's rows, so the array after
   the region is the dense layer of the three arrays the region found. -/
import proofs.«110405_j18640158064951_1_alg».proof.Proof.Gen.KernelIdeal.Frame
import proofs.«110405_j18640158064951_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

namespace Cert.KernelIdeal.Layer2

/-! ## The product's operand indices, axis by axis -/

/-- The left operand's row is the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted position. -/
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted position. -/
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's value at an index of its block -/

/-- The product into the zero accumulator at row p and column q: the sum over the contracted axis of the left
    operand's row p times the right operand's column q. -/
theorem matmul_at (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The body's value at row p and column q of its block depends on row p of the x block, the bias row and column q of
    the weights: the same-shape casts are the identity, the bias row is read at every row, the maximum is entrywise. -/
theorem payload_at (x0 : Vec Ideal S5000x128 .f32) (x1 : Vec Ideal S1x128 .f32) (x2 : Vec Ideal S128x64 .f32) (p : Fin 5000) (q : Fin 64) :
    k2_pay1 x0 x1 x2 (ix2 p q) = ∑ k : Fin 128, Cert.Dense.relu0 (x0 (ix2 p k) + x1 (ix2 (0 : Fin 1) k)) * x2 (ix2 k q) := by
  unfold k2_pay1
  refine (matmul_at _ _ p q).trans ?_
  refine Finset.sum_congr rfl fun k _ => ?_
  rw [truncf_apply, truncf_apply, maximumf_apply, addf_apply, broadcast_apply, shapeCast_self, shapeCast_self, broadcastTo_1b_ab_apply]
  rfl

/-- The block's value at (p, q) is the layer's value at an index i of the arrays, wherever row p of the x block is
    row i 0 of x, the bias block is the bias, and column q of the weights block is column i 1 of the weights. -/
theorem block_value (X0 : FVec Ideal (⟨2, ![50000, 128]⟩ : Shape) .f32) (X1 : FVec Ideal (⟨2, ![1, 128]⟩ : Shape) .f32)
    (X2 : FVec Ideal (⟨2, ![128, 64]⟩ : Shape) .f32)
    (x0 : Vec Ideal S5000x128 .f32) (x1 : Vec Ideal S1x128 .f32) (x2 : Vec Ideal S128x64 .f32)
    (i : (⟨2, ![50000, 64]⟩ : Shape).Idx) (p : Fin 5000) (q : Fin 64)
    (h0 : ∀ k : Fin 128, x0 (ix2 p k) = X0 (ix2 (⟨(i 0).val, idx2_lt0 i⟩ : Fin 50000) k))
    (h1 : ∀ k : Fin 128, x1 (ix2 (0 : Fin 1) k) = X1 (ix2 (0 : Fin 1) k))
    (h2 : ∀ k : Fin 128, x2 (ix2 k q) = X2 (ix2 k (⟨(i 1).val, idx2_lt1 i⟩ : Fin 64))) :
    k2_pay1 x0 x1 x2 (ix2 p q) = Cert.Dense.layer Cert.Dense.relu0 X0 X1 X2 i := by
  rw [payload_at]
  unfold Cert.Dense.layer
  exact Finset.sum_congr rfl fun k _ => by rw [h0, h1, h2]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: x's and the output's block row index is the point, every other block index is 0. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row index of the output is some point's. -/
theorem index_onto : ∀ r : Fin 10, ∃ t : Fin cfg2.N, win2_3.index t = ![r.val, 0] :=
  (by decide +kernel : ∀ r : Fin 10, ∃ t : Fin grid2.N, win2_3.index t = ![r.val, 0])

/-- What point t writes back is block t of the layer of the arrays the region found: an array coordinate under a
    block is the block index times the block's size plus the coordinate inside the block. -/
theorem flushed_eq (c : Dev nD) (t : Fin cfg2.N) :
    (dat2 (F := Ideal) V c).flushed 3 t = ((cfg2.win 3).blk t).view.read (Elt Ideal)
      (Cert.Dense.layer (n := 50000) (K := 128) (Q := 64) Cert.Dense.relu0 (V c main_v61) (V c main_v62) (V c main_arg6)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S1x128) zero_offsets, View.ld_unit_zero (S := S128x64) zero_offsets]
  funext j
  obtain ⟨p, q, rfl⟩ : ∃ (p : Fin 5000) (q : Fin 64), j = ix2 p q := ⟨j 0, j 1, eq_ix2 j⟩
  obtain ⟨e00, e01, e10, e11, e20, e21, e30, e31⟩ := index_facts t
  show k2_pay1 (iblk2 V c 0 t) (iblk2 V c 1 t) (iblk2 V c 2 t) (ix2 p q)
      = Cert.Dense.layer Cert.Dense.relu0 (V c main_v61) (V c main_v62) (V c main_arg6) (((cfg2.win 3).blk t).view.emb (ix2 p q))
  refine block_value _ _ _ _ _ _ _ p q (fun k => ?_) (fun k => ?_) (fun k => ?_)
  · show V c main_v61 (((cfg2.win 0).blk t).view.emb (ix2 p k)) = V c main_v61 _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show V c main_v62 (((cfg2.win 1).blk t).view.emb (ix2 (0 : Fin 1) k)) = V c main_v62 _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg6 (((cfg2.win 2).blk t).view.emb (ix2 k q)) = V c main_arg6 _
    refine congrArg _ (funext fun a => Fin.ext ?_)
    match a with
    | ⟨0, _⟩ => show win2_2.index t (0 : Fin 2) * 128 + 1 * k.val = k.val; omega
    | ⟨1, _⟩ => show win2_2.index t (1 : Fin 2) * 64 + 1 * q.val = win2_3.index t (1 : Fin 2) * 64 + 1 * q.val; omega

/-- An index of the output array is in point t's block iff each coordinate is in the block's range on its axis. -/
theorem mem_block (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v63).slice (win2_3.rect t)).set ↔ _
  rw [View.set_slice_whole, Rect.mem_set_unit]
  exact Iff.rfl

/-- Row r of the output lies in the block of the point whose block row index is r / 5000. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region is the dense layer of the three arrays the region found. -/
theorem arr_eq (c : Dev nD) :
    (Gen.dat2 (F := Ideal) V c).arrAt 3 cfg2.N
      = Cert.Dense.layer (n := 50000) (K := 128) (Q := 64) Cert.Dense.relu0 (V c main_v61) (V c main_v62) (V c main_arg6) :=
  (Gen.dat2 (F := Ideal) V c).arrAt_eq_of_cover 3 _ (fun t _ => flushed_eq V c t) covered

end Cert.KernelIdeal.Layer2

end
-- ==== Proof.KFold3.lean ====
/- The kernel program from its third region to the entry of its fourth.
   The third region adds the second bias to the second aggregate, applies the activation and multiplies by the third weight
   matrix: the reference's bias add, activation and third matrix product. The host operations that follow are, operation
   for operation, the reference's third aggregation; the fourth region's bias operand is the third bias vector as one row. -/
import proofs.«110405_j18640158064951_1_alg».proof.Proof.KFold2
import proofs.«110405_j18640158064951_1_alg».proof.Proof.KLayer2
import proofs.«110405_j18640158064951_1_alg».proof.Proof.RefLayers
import Idealize.ShloMosaic.Lib.Pipeline.Value
import Idealize.ShloMosaic.Lib.ValueIdx

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## At the region's exit -/

/-- The region's output is the reference's matrix product of the activated, biased aggregate with the weights. -/
theorem w8_v63 : W8 m ρ c (Proc.devRef .tc main_v63)
    = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ?_
  rw [Cert.KernelIdeal.Layer2.arr_eq (V7 m ρ) c]
  show Cert.Dense.layer (n := 50000) (K := 128) (Q := 64) Cert.Dense.relu0 (W7 m ρ c (Proc.devRef .tc main_v61))
      (W7 m ρ c (Proc.devRef .tc main_v62)) (W7 m ρ c (Proc.devRef .tc main_arg6)) = _
  rw [w7_v61 m ρ c, w7_arg6 m ρ c]
  exact (Cert.ReferenceIdeal.Layers.layer2 _ _ _ _ _ _ _ _ (w7_v62 m ρ c)).symm

theorem w8_v3 : W8 m ρ c (Proc.devRef .tc main_v3) = val_main_v3 (F := Ideal) (m ((c : Thread nD τ).loc main_arg1)) :=
  (W8_of_ne m ρ c main_v3 (by decide)).trans (w7_v3 m ρ c)
theorem w8_v6 : W8 m ρ c (Proc.devRef .tc main_v6) = val_main_v6 (F := Ideal) (m ((c : Thread nD τ).loc main_arg1)) :=
  (W8_of_ne m ρ c main_v6 (by decide)).trans (w7_v6 m ρ c)
theorem w8_v30 : W8 m ρ c (Proc.devRef .tc main_v30) = val_main_v30 (F := Ideal) (m ((c : Thread nD τ).loc main_arg1)) :=
  (W8_of_ne m ρ c main_v30 (by decide)).trans (w7_v30 m ρ c)
theorem w8_arg7 : W8 m ρ c (Proc.devRef .tc main_arg7) = m ((c : Thread nD τ).loc main_arg7) :=
  (W8_of_ne m ρ c main_arg7 (by decide)).trans (w7_arg7 m ρ c)
theorem w8_arg8 : W8 m ρ c (Proc.devRef .tc main_arg8) = m ((c : Thread nD τ).loc main_arg8) :=
  (W8_of_ne m ρ c main_arg8 (by decide)).trans (w7_arg8 m ρ c)
theorem w8_arg9 : W8 m ρ c (Proc.devRef .tc main_arg9) = m ((c : Thread nD τ).loc main_arg9) :=
  (W8_of_ne m ρ c main_arg9 (by decide)).trans (w7_arg9 m ρ c)

/-! ## When the next region is entered -/

/-- The aggregate the next region reads is the reference's aggregate of this layer's product. -/
theorem w9_v76 : W9 m ρ c (Proc.devRef .tc main_v76)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have ho := w8_v63 m ρ c
  have h3 := w8_v3 m ρ c
  have h6 := w8_v6 m ρ c
  have h30 := w8_v30 m ρ c
  dsimp only [W9, hostOps3]
  generalize W8 m ρ c = V at ho h3 h6 h30 ⊢
  after_results_simp
  rw [ho, h3, h6, h30]
  rfl

/-- Its bias operand is the next bias vector as one row. -/
theorem w9_v77 (k : Fin 64) :
    W9 m ρ c (Proc.devRef .tc main_v77) (ix2 (0 : Fin 1) k) = m ((c : Thread nD τ).loc main_arg7) (ix1 k) := by
  have h := w8_arg7 m ρ c
  have e : W9 m ρ c (Proc.devRef .tc main_v77)
      = fun i => shapeCast S1x64 (W8 m ρ c (Proc.devRef .tc main_arg7)) shapeCasts_S64_S1x64 i := by
    dsimp only [W9, hostOps3]
    generalize W8 m ρ c = V
    after_results_simp
    rfl
  rw [e, h]
  exact row_of_vec _ _ k

theorem w9_v3 : W9 m ρ c (Proc.devRef .tc main_v3) = val_main_v3 (F := Ideal) (m ((c : Thread nD τ).loc main_arg1)) :=
  (show W9 m ρ c (Proc.devRef .tc main_v3) = W8 m ρ c (Proc.devRef .tc main_v3) by kept_by_host).trans (w8_v3 m ρ c)
theorem w9_v6 : W9 m ρ c (Proc.devRef .tc main_v6) = val_main_v6 (F := Ideal) (m ((c : Thread nD τ).loc main_arg1)) :=
  (show W9 m ρ c (Proc.devRef .tc main_v6) = W8 m ρ c (Proc.devRef .tc main_v6) by kept_by_host).trans (w8_v6 m ρ c)
theorem w9_v30 : W9 m ρ c (Proc.devRef .tc main_v30) = val_main_v30 (F := Ideal) (m ((c : Thread nD τ).loc main_arg1)) :=
  (show W9 m ρ c (Proc.devRef .tc main_v30) = W8 m ρ c (Proc.devRef .tc main_v30) by kept_by_host).trans (w8_v30 m ρ c)
theorem w9_arg8 : W9 m ρ c (Proc.devRef .tc main_arg8) = m ((c : Thread nD τ).loc main_arg8) :=
  (show W9 m ρ c (Proc.devRef .tc main_arg8) = W8 m ρ c (Proc.devRef .tc main_arg8) by kept_by_host).trans (w8_arg8 m ρ c)
theorem w9_arg9 : W9 m ρ c (Proc.devRef .tc main_arg9) = m ((c : Thread nD τ).loc main_arg9) :=
  (show W9 m ρ c (Proc.devRef .tc main_arg9) = W8 m ρ c (Proc.devRef .tc main_arg9) by kept_by_host).trans (w8_arg9 m ρ c)

end Cert.KernelIdeal.Fold

end
-- ==== Proof.KLayer3.lean ====
/- Region 3's output array, index by index.
   The region walks ten points; point t holds rows 5000·t … 5000·t + 4999 of the input x : [50000, 64], the whole
   one-row bias b : [1, 64] and the whole weights w : [64, 1], and leaves rows 5000·t … of the output : [50000, 1].
   At row p and column q of its block the body's value is
     ∑ k < 64, max (x (p, k) + b (0, k)) 0 · w (k, q):
   the bias row is added to every row, the maximum with zero is taken entrywise, both casts to the narrower float
   type are the identity on the extended reals, and the product accumulates into zero. Each block entry depends on
   one row of x's block, the bias row and one column of w. The ten blocks tile the output's rows, so the array after
   the region is the dense layer of the three arrays the region found. -/
import proofs.«110405_j18640158064951_1_alg».proof.Proof.Gen.KernelIdeal.Frame
import proofs.«110405_j18640158064951_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

namespace Cert.KernelIdeal.Layer3

/-! ## The product's operand indices, axis by axis -/

/-- The left operand's row is the output's row. -/
theorem lhs_row (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- The left operand's column is the contracted position. -/
theorem lhs_contr (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
/-- The right operand's row is the contracted position. -/
theorem rhs_contr (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
/-- The right operand's column is the output's column. -/
theorem rhs_col (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-! ## The body's value at an index of its block -/

/-- The product into the zero accumulator at row p and column q: the sum over the contracted axis of the left
    operand's row p times the right operand's column q. -/
theorem matmul_at (a : FVec Ideal S5000x64 .bf16) (w : FVec Ideal S64x1 .bf16) (p : Fin 5000) (q : Fin 1) :
    matmul dot_S5000x64_S64x1_S5000x1_1_0_0_1_n_n none a w (constant (F := Ideal) S5000x1 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun a => Fin.ext (by
    match a with
    | ⟨0, _⟩ => exact (rhs_contr _ _).trans hk
    | ⟨1, _⟩ => exact rhs_col _ _)
  rw [el, er]

/-- The body's value at row p and column q of its block depends on row p of the x block, the bias row and column q of
    the weights: the same-shape casts are the identity, the bias row is read at every row, the maximum is entrywise. -/
theorem payload_at (x0 : Vec Ideal S5000x64 .f32) (x1 : Vec Ideal S1x64 .f32) (x2 : Vec Ideal S64x1 .f32) (p : Fin 5000) (q : Fin 1) :
    k3_pay1 x0 x1 x2 (ix2 p q) = ∑ k : Fin 64, Cert.Dense.relu0 (x0 (ix2 p k) + x1 (ix2 (0 : Fin 1) k)) * x2 (ix2 k q) := by
  unfold k3_pay1
  refine (matmul_at _ _ p q).trans ?_
  refine Finset.sum_congr rfl fun k _ => ?_
  rw [truncf_apply, truncf_apply, maximumf_apply, addf_apply, broadcast_apply, shapeCast_self, shapeCast_self, broadcastTo_1b_ab_apply]
  rfl

/-- The block's value at (p, q) is the layer's value at an index i of the arrays, wherever row p of the x block is
    row i 0 of x, the bias block is the bias, and column q of the weights block is column i 1 of the weights. -/
theorem block_value (X0 : FVec Ideal (⟨2, ![50000, 64]⟩ : Shape) .f32) (X1 : FVec Ideal (⟨2, ![1, 64]⟩ : Shape) .f32)
    (X2 : FVec Ideal (⟨2, ![64, 1]⟩ : Shape) .f32)
    (x0 : Vec Ideal S5000x64 .f32) (x1 : Vec Ideal S1x64 .f32) (x2 : Vec Ideal S64x1 .f32)
    (i : (⟨2, ![50000, 1]⟩ : Shape).Idx) (p : Fin 5000) (q : Fin 1)
    (h0 : ∀ k : Fin 64, x0 (ix2 p k) = X0 (ix2 (⟨(i 0).val, idx2_lt0 i⟩ : Fin 50000) k))
    (h1 : ∀ k : Fin 64, x1 (ix2 (0 : Fin 1) k) = X1 (ix2 (0 : Fin 1) k))
    (h2 : ∀ k : Fin 64, x2 (ix2 k q) = X2 (ix2 k (⟨(i 1).val, idx2_lt1 i⟩ : Fin 1))) :
    k3_pay1 x0 x1 x2 (ix2 p q) = Cert.Dense.layer Cert.Dense.relu0 X0 X1 X2 i := by
  rw [payload_at]
  unfold Cert.Dense.layer
  exact Finset.sum_congr rfl fun k _ => by rw [h0, h1, h2]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: x's and the output's block row index is the point, every other block index is 0. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every block row index of the output is some point's. -/
theorem index_onto : ∀ r : Fin 10, ∃ t : Fin cfg3.N, win3_3.index t = ![r.val, 0] :=
  (by decide +kernel : ∀ r : Fin 10, ∃ t : Fin grid3.N, win3_3.index t = ![r.val, 0])

/-- What point t writes back is block t of the layer of the arrays the region found: an array coordinate under a
    block is the block index times the block's size plus the coordinate inside the block. -/
theorem flushed_eq (c : Dev nD) (t : Fin cfg3.N) :
    (dat3 (F := Ideal) V c).flushed 3 t = ((cfg3.win 3).blk t).view.read (Elt Ideal)
      (Cert.Dense.layer (n := 50000) (K := 64) (Q := 1) Cert.Dense.relu0 (V c main_v76) (V c main_v77) (V c main_arg8)) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S1x64) zero_offsets, View.ld_unit_zero (S := S64x1) zero_offsets]
  funext j
  obtain ⟨p, q, rfl⟩ : ∃ (p : Fin 5000) (q : Fin 1), j = ix2 p q := ⟨j 0, j 1, eq_ix2 j⟩
  obtain ⟨e00, e01, e10, e11, e20, e21, e30, e31⟩ := index_facts t
  show k3_pay1 (iblk3 V c 0 t) (iblk3 V c 1 t) (iblk3 V c 2 t) (ix2 p q)
      = Cert.Dense.layer Cert.Dense.relu0 (V c main_v76) (V c main_v77) (V c main_arg8) (((cfg3.win 3).blk t).view.emb (ix2 p q))
  refine block_value _ _ _ _ _ _ _ p q (fun k => ?_) (fun k => ?_) (fun k => ?_)
  · show V c main_v76 (((cfg3.win 0).blk t).view.emb (ix2 p k)) = V c main_v76 _
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * k.val = k.val; omega
  · show V c main_v77 (((cfg3.win 1).blk t).view.emb (ix2 (0 : Fin 1) k)) = V c main_v77 _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * k.val = k.val; omega
  · show V c main_arg8 (((cfg3.win 2).blk t).view.emb (ix2 k q)) = V c main_arg8 _
    refine congrArg _ (funext fun a => Fin.ext ?_)
    match a with
    | ⟨0, _⟩ => show win3_2.index t (0 : Fin 2) * 64 + 1 * k.val = k.val; omega
    | ⟨1, _⟩ => show win3_2.index t (1 : Fin 2) * 1 + 1 * q.val = win3_3.index t (1 : Fin 2) * 1 + 1 * q.val; omega

/-- An index of the output array is in point t's block iff each coordinate is in the block's range on its axis. -/
theorem mem_block (t : Fin cfg3.N) (i : S50000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v78).slice (win3_3.rect t)).set ↔ _
  rw [View.set_slice_whole, Rect.mem_set_unit]
  exact Iff.rfl

/-- Row r of the output lies in the block of the point whose block row index is r / 5000. -/
theorem covered (i : S50000x1.Idx) :
    ∃ t : Fin cfg3.N, (cfg3.win 3).flush t = true ∧ i ∈ ((cfg3.win 3).blk t).view.set := by
  have hi0 : (i 0).val < 50000 := (i 0).isLt
  have hi1 : (i 1).val < 1 := (i 1).isLt
  obtain ⟨t, ht⟩ := index_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 1 ≤ (i 1).val ∧ (i 1).val < win3_3.index t (1 : Fin 2) * 1 + 1; omega

/-- The output array after the region is the dense layer of the three arrays the region found. -/
theorem arr_eq (c : Dev nD) :
    (Gen.dat3 (F := Ideal) V c).arrAt 3 cfg3.N
      = Cert.Dense.layer (n := 50000) (K := 64) (Q := 1) Cert.Dense.relu0 (V c main_v76) (V c main_v77) (V c main_arg8) :=
  (Gen.dat3 (F := Ideal) V c).arrAt_eq_of_cover 3 _ (fun t _ => flushed_eq V c t) covered

end Cert.KernelIdeal.Layer3

end
-- ==== Proof.KFold4.lean ====
/- The kernel program from its fourth region to its result.
   The fourth region adds the third bias to the third aggregate, applies the activation and multiplies by the fourth
   weight matrix: the reference's bias add, activation and fourth matrix product. The host operations that follow are,
   operation for operation, the reference's fourth aggregation and its final bias add: the kernel program's result is
   the reference's result as a function of the ten arguments. -/
import proofs.«110405_j18640158064951_1_alg».proof.Proof.KFold3
import proofs.«110405_j18640158064951_1_alg».proof.Proof.KLayer3
import proofs.«110405_j18640158064951_1_alg».proof.Proof.RefLayers
import Idealize.ShloMosaic.Lib.Pipeline.Value
import Idealize.ShloMosaic.Lib.ValueIdx

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## At the fourth region's exit -/

/-- The region's output is the reference's fourth matrix product. -/
theorem w10_v78 : W10 m ρ c (Proc.devRef .tc main_v78)
    = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ?_
  rw [Cert.KernelIdeal.Layer3.arr_eq (V9 m ρ) c]
  show Cert.Dense.layer (n := 50000) (K := 64) (Q := 1) Cert.Dense.relu0 (W9 m ρ c (Proc.devRef .tc main_v76))
      (W9 m ρ c (Proc.devRef .tc main_v77)) (W9 m ρ c (Proc.devRef .tc main_arg8)) = _
  rw [w9_v76 m ρ c, w9_arg8 m ρ c]
  exact (Cert.ReferenceIdeal.Layers.layer3 _ _ _ _ _ _ _ _ _ _ (w9_v77 m ρ c)).symm

theorem w10_v3 : W10 m ρ c (Proc.devRef .tc main_v3) = val_main_v3 (F := Ideal) (m ((c : Thread nD τ).loc main_arg1)) :=
  (W10_of_ne m ρ c main_v3 (by decide)).trans (w9_v3 m ρ c)
theorem w10_v6 : W10 m ρ c (Proc.devRef .tc main_v6) = val_main_v6 (F := Ideal) (m ((c : Thread nD τ).loc main_arg1)) :=
  (W10_of_ne m ρ c main_v6 (by decide)).trans (w9_v6 m ρ c)
theorem w10_v30 : W10 m ρ c (Proc.devRef .tc main_v30) = val_main_v30 (F := Ideal) (m ((c : Thread nD τ).loc main_arg1)) :=
  (W10_of_ne m ρ c main_v30 (by decide)).trans (w9_v30 m ρ c)
theorem w10_arg9 : W10 m ρ c (Proc.devRef .tc main_arg9) = m ((c : Thread nD τ).loc main_arg9) :=
  (W10_of_ne m ρ c main_arg9 (by decide)).trans (w9_arg9 m ρ c)

/-! ## The result -/

/-- The kernel program's result buffer holds the reference's result term of the arguments' launch contents. -/
theorem w11_v93 : W11 m ρ c (Proc.devRef .tc main_v93)
    = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have ho := w10_v78 m ρ c
  have h3 := w10_v3 m ρ c
  have h6 := w10_v6 m ρ c
  have h30 := w10_v30 m ρ c
  have h9 := w10_arg9 m ρ c
  dsimp only [W11, hostOps4]
  generalize W10 m ρ c = V at ho h3 h6 h30 h9 ⊢
  after_results_simp
  rw [ho, h3, h6, h30, h9]
  rfl

end Cert.KernelIdeal.Fold

end
-- ==== Proof.lean ====
/- The certificate of a four-layer graph convolution network against its plain reference.
   Both programs compute, from the edge list, each edge's source and destination (with one self-loop per node) and its
   weight 1/sqrt(deg src · deg dst), and then four times: multiply the node features by a weight matrix, gather the
   product's rows at the edges' sources, scale by the edge weights, add up at the destinations, add a bias; an activation
   (the maximum with zero) follows the first three layers. The kernel program does each layer's matrix product in a
   tiled region over blocks of 5000 rows, and moves the bias add and the activation of a layer INTO the next layer's
   region (the first region adds a zero bias and has no activation). At the ideal instance a tiled product into a zero
   accumulator is the plain sum of products, a change of float format is the identity and x + 0 = x for every extended
   real, so each region's output array is the reference's matrix product of the same operands (Proof/KLayer*.lean against
   Proof/RefLayers.lean, through the one function `Cert.Dense.layer`); the host operations between the regions are the
   reference's own, operation for operation (Proof/KFold*.lean). No law that needs finiteness is used: the precondition
   is never opened. The ideal pass rewrote nothing, so `preserves` has no conjunct. -/
import proofs.«110405_j18640158064951_1_alg».proof.Defs
import proofs.«110405_j18640158064951_1_alg».proof.Proof.Gen.Kernel
import proofs.«110405_j18640158064951_1_alg».proof.Proof.Gen.Kernel.Frame
import proofs.«110405_j18640158064951_1_alg».proof.Proof.Gen.KernelIdeal
import proofs.«110405_j18640158064951_1_alg».proof.Proof.Gen.KernelIdeal.Frame
import proofs.«110405_j18640158064951_1_alg».proof.Proof.Gen.ReferenceIdeal
import proofs.«110405_j18640158064951_1_alg».proof.Proof.Gen.Pre_finite_inputs
import proofs.«110405_j18640158064951_1_alg».proof.Proof.RunNamed
import proofs.«110405_j18640158064951_1_alg».proof.Proof.RefRead
import proofs.«110405_j18640158064951_1_alg».proof.Proof.KFold4
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k [hPre : Cert.Pre_finite_inputs.Facts] [hK : Cert.Kernel.Facts] : Cert.frame_Kernel :=
  fun m ρ _ => Cert.Kernel.Gen.frame m ρ

/-- So does the idealized kernel program. -/
theorem frame_ki [hPre : Cert.Pre_finite_inputs.Facts] [hK : Cert.KernelIdeal.Facts] : Cert.frame_KernelIdeal :=
  fun m ρ _ => Cert.KernelIdeal.Gen.frame m ρ

/-- The reference is host operations only: its run, with the result forgotten. -/
theorem frame_ri [hPre : Cert.Pre_finite_inputs.Facts] [hR : Cert.ReferenceIdeal.Facts] : Cert.frame_ReferenceIdeal :=
  fun m ρ _ => (θ_run Cert.ReferenceIdeal.defs _ _).mono (fun _ h c => (h c).2) (Cert.ReferenceIdeal.ValueP.run (F := Ideal) m ρ)

/-- Both idealized programs end with the reference's result term of the (agreeing) arguments. -/
theorem algebraic [hPre : Cert.Pre_finite_inputs.Facts] [hK : Cert.KernelIdeal.Facts] [hR : Cert.ReferenceIdeal.Facts] :
    Cert.algebraic_KernelIdeal_ReferenceIdeal := by
  intro m ρ m' ρ' _ hagree
  refine ⟨fun c => Cert.ReferenceIdeal.ReadP.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (Cert.KernelIdeal.Fold.w11_v93 m ρ c), (h c).2⟩)
      (Cert.KernelIdeal.Named.run (F := Ideal) m ρ)
  · refine (θ_run Cert.ReferenceIdeal.defs _ _).mono (fun _ h c => ⟨(h c).1.trans ?_, (h c).2⟩) (Cert.ReferenceIdeal.ValueP.run (F := Ideal) m' ρ')
    obtain ⟨e0, e1, e2, e3, e4, e5, e6, e7, e8, e9⟩ := hagree c
    rw [Cert.ReferenceIdeal.ReadP.val_main_v100_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
